-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S800000x50 : Shape := ⟨2, ![800000, 50]⟩
abbrev S128x50 : Shape := ⟨2, ![128, 50]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S800000x50 : S_.BroadcastsInDim S800000x50 (![] : Fin 0 → Fin S800000x50.rank)
  reducesTo_S800000x50_S_d0_1 : S800000x50.ReducesTo [0, 1] S_
  bcast_S_S128x50 : S_.BroadcastsInDim S128x50 (![] : Fin 0 → Fin S128x50.rank)
  reducesTo_S128x50_S_d0_1 : S128x50.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg12 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S128x128 .f32) (main_arg9 : FVec F S128x128 .f32) (main_arg10 : FVec F S128 .f32) (main_arg11 : FVec F S128x128 .f32) (main_arg12 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128 .f32) (main_v13 : IVec S_ 1) (main_v16 : IVec S128x50 1) : IVec S_ 1 :=
  let main_c_5 : IVec S_ 1 := constantI S_ 1 1#1
  let main_v17 : IVec S_ 1 := (fun x v => Host.reduce IntOp.andi x v reducesTo_S128x50_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x800000 32) (main_arg2 : FVec F S800000 .f32) (main_arg3 : FVec F S800000x50 .f32) (main_arg4 : FVec F S128x50 .f32) (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S800000x50 .f32 := Host.absf main_arg3
  let main_cst_2 : FVec F S_ .f32 := constant S_ .f32 0x7F800000#32
  let main_v10 : FVec F S800000x50 .f32 := broadcastInDim S800000x50 ![] bcast_S_S800000x50 main_cst_2
  let main_v11 : IVec S800000x50 1 := cmpf .olt main_v9 main_v10
  let main_c_3 : IVec S_ 1 := constantI S_ 1 1#1
  let main_v12 : IVec S_ 1 := (fun x v => Host.reduce IntOp.andi x v reducesTo_S800000x50_S_d0_1 h_S_) main_v11 main_c_3
  let main_v13 : IVec S_ 1 := andi main_v8 main_v12
  let main_v14 : FVec F S128x50 .f32 := Host.absf main_arg4
  let main_cst_4 : FVec F S_ .f32 := constant S_ .f32 0x7F800000#32
  let main_v15 : FVec F S128x50 .f32 := broadcastInDim S128x50 ![] bcast_S_S128x50 main_cst_4
  let main_v16 : IVec S128x50 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S800000x50 : Shape := ⟨2, ![800000, 50]⟩
abbrev S128x50 : Shape := ⟨2, ![128, 50]⟩
abbrev S128 : Shape := ⟨1, ![128]⟩
abbrev S128x128 : Shape := ⟨2, ![128, 128]⟩
abbrev S1x800000 : Shape := ⟨2, ![1, 800000]⟩
abbrev S800000x1 : Shape := ⟨2, ![800000, 1]⟩
abbrev S800000x51 : Shape := ⟨2, ![800000, 51]⟩
abbrev S800000x128 : Shape := ⟨2, ![800000, 128]⟩
abbrev S4000x51 : Shape := ⟨2, ![4000, 51]⟩
abbrev S4000x128 : Shape := ⟨2, ![4000, 128]⟩
abbrev S4000x50 : Shape := ⟨2, ![4000, 50]⟩
abbrev S4000x1 : Shape := ⟨2, ![4000, 1]⟩
abbrev S1x128 : Shape := ⟨2, ![1, 128]⟩
abbrev S5000x128 : Shape := ⟨2, ![5000, 128]⟩
abbrev S_ : Shape := ⟨0, ![]⟩

abbrev nBuf : Space → Nat
  | .hbm => 36
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S800000x50, .f32⟩
  | .hbm, ⟨4, _⟩ => ⟨S128x50, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S800000x1, .f32⟩
  | .hbm, ⟨18, _⟩ => ⟨S800000x51, .f32⟩
  | .hbm, ⟨19, _⟩ => ⟨S800000x128, .f32⟩
  | .hbm, ⟨20, _⟩ => ⟨S50000x128, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S800000x128, .f32⟩
  | .hbm, ⟨31, _⟩ => ⟨S_, .f32⟩
  | .hbm, ⟨32, _⟩ => ⟨S50000x128, .f32⟩
  | .hbm, ⟨33, _⟩ => ⟨S800000x1, .i32⟩
  | .hbm, ⟨34, _⟩ => ⟨S50000x128, .f32⟩
  | .hbm, ⟨35, _⟩ => ⟨S50000x128, .f32⟩
  | .local _ .vmem, ⟨0, _⟩ => ⟨S4000x51, .f32⟩
  | .local _ .vmem, ⟨1, _⟩ => ⟨S4000x51, .f32⟩
  | .local _ .vmem, ⟨2, _⟩ => ⟨S128x50, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S4000x128, .f32⟩
  | .local _ .vmem, ⟨7, _⟩ => ⟨S4000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S128, .f32⟩
  | .local _ .vmem, ⟨17, _⟩ => ⟨S128x128, .f32⟩
  | .local _ .vmem, ⟨18, _⟩ => ⟨S128, .f32⟩
  | .local _ .vmem, ⟨19, _⟩ => ⟨S5000x128, .f32⟩
  | .local _ .vmem, ⟨20, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x51 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x50 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  concatenates_S800000x50_S800000x1_S800000x51_d1 : Shape.Concatenates [S800000x50, S800000x1] S800000x51 1
  inb_S4000x51_S4000x50_0_0 : ∀ a, (![0, 0] : Fin 2 → Nat) a + S4000x50.size a ≤ S4000x51.size a
  h_S4000x50 : 0 < S4000x50.numel
  shapeCasts_S4000x50_S4000x50 : S4000x50.ShapeCasts S4000x50
  inb_S4000x51_S4000x1_0_50 : ∀ a, (![0, 50] : Fin 2 → Nat) a + S4000x1.size a ≤ S4000x51.size a
  h_S4000x1 : 0 < S4000x1.numel
  shapeCasts_S4000x1_S4000x1 : S4000x1.ShapeCasts S4000x1
  bitsLt_bf16_f32 : FTy.bits .bf16 < FTy.bits .f32
  inb_S128x50_S128x50_0_0 : ∀ a, (![0, 0] : Fin 2 → Nat) a + S128x50.size a ≤ S128x50.size a
  h_S128x50 : 0 < S128x50.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  broadcasts_S4000x1_S4000x128 : S4000x1.Broadcasts S4000x128
  inb_S4000x128_S4000x128_0_0 : ∀ a, (![0, 0] : Fin 2 → Nat) a + S4000x128.size a ≤ S4000x128.size a
  h_S4000x128 : 0 < S4000x128.numel
  inb_S5000x128_S5000x128_0_0 : ∀ a, (![0, 0] : Fin 2 → Nat) a + S5000x128.size a ≤ S5000x128.size a
  h_S5000x128 : 0 < S5000x128.numel
  bcast_S_S800000 : S_.BroadcastsInDim S800000 (![] : Fin 0 → Fin S800000.rank)
  bcast_S_S50000x128 : S_.BroadcastsInDim S50000x128 (![] : Fin 0 → Fin S50000x128.rank)
  shapeCasts_S5000x128_S5000x128 : S5000x128.ShapeCasts S5000x128
  broadcasts_S1x128_S5000x128 : S1x128.Broadcasts S5000x128
  dot_S4000x50_S128x50_S4000x128_1_1_0_0_n_n_wf : DotDims.WF S4000x50 S128x50 S4000x128 [1] [1] [0] [0] [] []
  dot_S4000x128_S128x128_S4000x128_1_1_0_0_n_n_wf : DotDims.WF S4000x128 S128x128 S4000x128 [1] [1] [0] [0] [] []
  dot_S5000x128_S128x128_S5000x128_1_1_0_0_n_n_wf : DotDims.WF S5000x128 S128x128 S5000x128 [1] [1] [0] [0] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x51.size a ≤ S800000x51.size a
  hwx0_0 : ∀ i : grid0.Coords, EltTy.bits .f32 = 32 ∨ (Rect.block (s := S800000x51) S4000x51.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x50.size a ≤ S128x50.size a
  hwx0_1 : ∀ i : grid0.Coords, EltTy.bits .f32 = 32 ∨ (Rect.block (s := S128x50) S128x50.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S800000x128.size a
  hwx0_5 : ∀ i : grid0.Coords, EltTy.bits .f32 = 32 ∨ (Rect.block (s := S800000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def dot_S4000x50_S128x50_S4000x128_1_1_0_0_n_n : DotDims S4000x50 S128x50 S4000x128 where
  lhsContracting := [1]
  rhsContracting := [1]
  lhsNonContracting := [0]
  rhsNonContracting := [0]
  lhsBatch := []
  rhsBatch := []
  wf := dot_S4000x50_S128x50_S4000x128_1_1_0_0_n_n_wf
def dot_S4000x128_S128x128_S4000x128_1_1_0_0_n_n : DotDims S4000x128 S128x128 S4000x128 where
  lhsContracting := [1]
  rhsContracting := [1]
  lhsNonContracting := [0]
  rhsNonContracting := [0]
  lhsBatch := []
  rhsBatch := []
  wf := dot_S4000x128_S128x128_S4000x128_1_1_0_0_n_n_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_v5) S4000x51.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x50.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v18) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v19) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S800000x50 : Shape := ⟨2, ![800000, 50]⟩
abbrev S128x50 : Shape := ⟨2, ![128, 50]⟩
abbrev S128 : Shape := ⟨1, ![128]⟩
abbrev S128x128 : Shape := ⟨2, ![128, 128]⟩
abbrev S1x800000 : Shape := ⟨2, ![1, 800000]⟩
abbrev S_ : Shape := ⟨0, ![]⟩
abbrev S50x128 : Shape := ⟨2, ![50, 128]⟩
abbrev S800000x128 : Shape := ⟨2, ![800000, 128]⟩
abbrev S1x128 : Shape := ⟨2, ![1, 128]⟩
abbrev S800000x1 : Shape := ⟨2, ![800000, 1]⟩

abbrev nBuf : Space → Nat
  | .hbm => 100
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S800000x50, .f32⟩
  | .hbm, ⟨4, _⟩ => ⟨S128x50, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .f32⟩
  | .hbm, ⟨18, _⟩ => ⟨S800000, .f32⟩
  | .hbm, ⟨19, _⟩ => ⟨S800000, .f32⟩
  | .hbm, ⟨20, _⟩ => ⟨S800000, .f32⟩
  | .hbm, ⟨21, _⟩ => ⟨S_, .f32⟩
  | .hbm, ⟨22, _⟩ => ⟨S800000, .f32⟩
  | .hbm, ⟨23, _⟩ => ⟨S800000, .f32⟩
  | .hbm, ⟨24, _⟩ => ⟨S_, .f32⟩
  | .hbm, ⟨25, _⟩ => ⟨S800000, .f32⟩
  | .hbm, ⟨26, _⟩ => ⟨S800000, .f32⟩
  | .hbm, ⟨27, _⟩ => ⟨S50x128, .f32⟩
  | .hbm, ⟨28, _⟩ => ⟨S800000x128, .f32⟩
  | .hbm, ⟨29, _⟩ => ⟨S1x128, .f32⟩
  | .hbm, ⟨30, _⟩ => ⟨S800000x128, .f32⟩
  | .hbm, ⟨31, _⟩ => ⟨S800000x128, .f32⟩
  | .hbm, ⟨32, _⟩ => ⟨S_, .f32⟩
  | .hbm, ⟨33, _⟩ => ⟨S800000x128, .f32⟩
  | .hbm, ⟨34, _⟩ => ⟨S800000x128, .f32⟩
  | .hbm, ⟨35, _⟩ => ⟨S800000x128, .f32⟩
  | .hbm, ⟨36, _⟩ => ⟨S800000x128, .f32⟩
  | .hbm, ⟨37, _⟩ => ⟨S800000x128, .i1⟩
  | .hbm, ⟨38, _⟩ => ⟨S800000x128, .f32⟩
  | .hbm, ⟨39, _⟩ => ⟨S800000x128, .f32⟩
  | .hbm, ⟨40, _⟩ => ⟨S800000x128, .f32⟩
  | .hbm, ⟨41, _⟩ => ⟨S800000x128, .f32⟩
  | .hbm, ⟨42, _⟩ => ⟨S800000x128, .f32⟩
  | .hbm, ⟨43, _⟩ => ⟨S800000x128, .f32⟩
  | .hbm, ⟨44, _⟩ => ⟨S800000x128, .f32⟩
  | .hbm, ⟨45, _⟩ => ⟨S800000x128, .f32⟩
  | .hbm, ⟨46, _⟩ => ⟨S_, .f32⟩
  | .hbm, ⟨47, _⟩ => ⟨S800000x128, .f32⟩
  | .hbm, ⟨48, _⟩ => ⟨S800000x128, .f32⟩
  | .hbm, ⟨49, _⟩ => ⟨S128x128, .f32⟩
  | .hbm, ⟨50, _⟩ => ⟨S800000x128, .f32⟩
  | .hbm, ⟨51, _⟩ => ⟨S1x128, .f32⟩
  | .hbm, ⟨52, _⟩ => ⟨S800000x128, .f32⟩
  | .hbm, ⟨53, _⟩ => ⟨S800000x128, .f32⟩
  | .hbm, ⟨54, _⟩ => ⟨S800000x1, .f32⟩
  | .hbm, ⟨55, _⟩ => ⟨S800000x128, .f32⟩
  | .hbm, ⟨56, _⟩ => ⟨S800000x128, .f32⟩
  | .hbm, ⟨57, _⟩ => ⟨S128x128, .f32⟩
  | .hbm, ⟨58, _⟩ => ⟨S50000x128, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x128, .f32⟩
  | .hbm, ⟨68, _⟩ => ⟨S800000x128, .f32⟩
  | .hbm, ⟨69, _⟩ => ⟨S_, .f32⟩
  | .hbm, ⟨70, _⟩ => ⟨S50000x128, .f32⟩
  | .hbm, ⟨71, _⟩ => ⟨S800000x1, .i32⟩
  | .hbm, ⟨72, _⟩ => ⟨S50000x128, .f32⟩
  | .hbm, ⟨73, _⟩ => ⟨S128x128, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S_, .f32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S50000x128, .f32⟩
  | .hbm, ⟨83, _⟩ => ⟨S50000x128, .i1⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S50000x128, .f32⟩
  | .hbm, ⟨92, _⟩ => ⟨S_, .f32⟩
  | .hbm, ⟨93, _⟩ => ⟨S50000x128, .f32⟩
  | .hbm, ⟨94, _⟩ => ⟨S50000x128, .f32⟩
  | .hbm, ⟨95, _⟩ => ⟨S128x128, .f32⟩
  | .hbm, ⟨96, _⟩ => ⟨S50000x128, .f32⟩
  | .hbm, ⟨97, _⟩ => ⟨S1x128, .f32⟩
  | .hbm, ⟨98, _⟩ => ⟨S50000x128, .f32⟩
  | .hbm, ⟨99, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_v16 : Ref sig .tc := ⟨.hbm, 45, rfl⟩
abbrev main_cst_2 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_c : Ref sig .tc := ⟨.hbm, 59, rfl⟩
abbrev main_v29 : Ref sig .tc := ⟨.hbm, 60, rfl⟩
abbrev main_v30 : Ref sig .tc := ⟨.hbm, 61, rfl⟩
abbrev main_c_3 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_4 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_call1_cst : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_v45 : Ref sig .tc := ⟨.hbm, 91, rfl⟩
abbrev main_cst_5 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  transposes_S128x50_S50x128_1_0 : S128x50.Transposes [1, 0] S50x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  transposes_S128x128_S128x128_1_0 : S128x128.Transposes [1, 0] S128x128
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  dot_S800000x50_S50x128_S800000x128_1_0_0_1_n_n_wf : DotDims.WF S800000x50 S50x128 S800000x128 [1] [0] [0] [1] [] []
  dot_S800000x128_S128x128_S800000x128_1_0_0_1_n_n_wf : DotDims.WF S800000x128 S128x128 S800000x128 [1] [0] [0] [1] [] []
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S800000x50_S50x128_S800000x128_1_0_0_1_n_n : DotDims S800000x50 S50x128 S800000x128 where
  lhsContracting := [1]
  rhsContracting := [0]
  lhsNonContracting := [0]
  rhsNonContracting := [1]
  lhsBatch := []
  rhsBatch := []
  wf := dot_S800000x50_S50x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Spec.lean ====
/-
  The mathematics both programs compute, stated once over the extended reals and over literal index ranges.

  An interaction block of a continuous-filter network on a graph of 50000 nodes and 800000 edges. With
  `ssp x = max x 0 + log (1 + exp (-|x|)) - c` (a softplus shifted by the literal `c`, the single-precision
  word nearest log 2) and `cutoff d = 1/2 · (cos (d · κ) + 1)` (`κ` the single-precision word nearest π/10):

    * `edgeFilter`: row e, column f of the edge filter is
        ((∑ j, ssp ((∑ k, attr e k · w₁ j k) + b₁ j) · w₂ f j) + b₂ f) · cutoff (dist e);
    * `nodeProj`: row n, column f of the projected node features is ∑ k, x n k · w f k;
    * `nodeUpdate`: row n, column f of the result is
        (∑ j, ssp ((∑ k, agg n k · w₂ j k) + b₂ j) · w f j) + b f.

  `edgeFilterPacked` is `edgeFilter` read off one array that holds the 50 attributes of an edge in its
  columns 0 … 49 and the edge's distance in its column 50.

  Sums are finite sums over `Fin`; every weight matrix is used transposed (contracted on its second
  coordinate), so no transpose appears. The two scalar lemmas say that the two spellings of the shifted
  softplus met in the programs (with a comparison of a value against itself selecting a branch that no
  extended real takes, and with `0 - |x|` in one and `-|x|` in the other) are this one function.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- An a × b array of extended reals. -/
abbrev Mat (a b : ℕ) : Type := FVec Ideal ⟨2, ![a, b]⟩ .f32
/-- A vector of a extended reals. -/
abbrev Row (a : ℕ) : Type := FVec Ideal ⟨1, ![a]⟩ .f32

/-- The literal subtracted by the shifted softplus: the single-precision word nearest log 2. -/
abbrev shift : EReal := Ideal.ofBits .f32 0x3F317218#32

/-- Shifted softplus: max x 0 + log (1 + exp (-|x|)) - shift, with |x| = max x (-x). -/
def ssp (x : EReal) : EReal :=
  max x 0 + Ideal.log1p (Ideal.exp (-(max x (-x)))) - shift

/-- The cosine cutoff of a distance: 1/2 · (cos (d · κ) + 1). -/
def cutoff (d : EReal) : EReal :=
  Ideal.ofBits .f32 0x3F000000#32 * (Ideal.cos (d * Ideal.ofBits .f32 0x3EA0D97C#32) + Ideal.ofBits .f32 0x3F800000#32)

/-- The comparison "x differs from x" is never true on the extended reals, ordered or unordered. -/
theorem cmp_ne_self (x : EReal) : Ideal.cmp .one x x = 0#1 ∧ Ideal.cmp .une x x = 0#1 := by
  constructor <;> simp [Ideal.cmp]

/-- The spelling with `0 - |x - 0|` and the ordered comparison. -/
theorem ssp_of_sub (x : EReal) :
    Scalar.select (Ideal.cmp .one (x - Ideal.ofBits .f32 0x00000000#32) (x - Ideal.ofBits .f32 0x00000000#32))
        (x + Ideal.ofBits .f32 0x00000000#32)
        (max x (Ideal.ofBits .f32 0x00000000#32)
          + Ideal.log1p (Ideal.exp (Ideal.ofBits .f32 0x00000000#32
              - max (x - Ideal.ofBits .f32 0x00000000#32) (-(x - Ideal.ofBits .f32 0x00000000#32)))))
      - Ideal.ofBits .f32 0x3F317218#32 = ssp x := by
  rw [(cmp_ne_self _).1, Ideal.ofBits_zero_f32]
  simp only [sub_zero, zero_sub]
  rfl

/-- The spelling with `-|x - 0|` and the unordered comparison. -/
theorem ssp_of_neg (x : EReal) :
    Scalar.select (Ideal.cmp .une (x - Ideal.ofBits .f32 0x00000000#32) (x - Ideal.ofBits .f32 0x00000000#32))
        (x + Ideal.ofBits .f32 0x00000000#32)
        (max x (Ideal.ofBits .f32 0x00000000#32)
          + Ideal.log1p (Ideal.exp (-(max (x - Ideal.ofBits .f32 0x00000000#32) (-(x - Ideal.ofBits .f32 0x00000000#32))))))
      - Ideal.ofBits .f32 0x3F317218#32 = ssp x := by
  rw [(cmp_ne_self _).2, Ideal.ofBits_zero_f32]
  simp only [sub_zero]
  rfl

/-- The edge filter from the edge attributes and the edge distances. -/
def edgeFilter (attr : Mat 800000 50) (dist : Row 800000) (w₁ : Mat 128 50) (b₁ : Row 128) (w₂ : Mat 128 128) (b₂ : Row 128) :
    Mat 800000 128 := fun i =>
  ((∑ j : Fin 128, ssp ((∑ k : Fin 50, attr (ix2 (i 0) k) * w₁ (ix2 j k)) + b₁ (ix1 j)) * w₂ (ix2 (i 1) j)) + b₂ (ix1 (i 1)))
    * cutoff (dist (ix1 (i 0)))

/-- The edge filter from one packed array: attributes in columns 0 … 49, the distance in column 50. -/
def edgeFilterPacked (feat : Mat 800000 51) (w₁ : Mat 128 50) (b₁ : Row 128) (w₂ : Mat 128 128) (b₂ : Row 128) :
    Mat 800000 128 := fun i =>
  ((∑ j : Fin 128, ssp ((∑ k : Fin 50, feat (ix2 (i 0) (Fin.castLE (by decide : 50 ≤ 51) k)) * w₁ (ix2 j k)) + b₁ (ix1 j))
      * w₂ (ix2 (i 1) j)) + b₂ (ix1 (i 1)))
    * cutoff (feat (ix2 (i 0) (⟨50, by decide⟩ : Fin 51)))

/-- The projected node features. -/
def nodeProj (x : Mat 50000 128) (w : Mat 128 128) : Mat 50000 128 := fun i =>
  ∑ k : Fin 128, x (ix2 (i 0) k) * w (ix2 (i 1) k)

/-- The node update applied to the aggregated messages. -/
def nodeUpdate (agg : Mat 50000 128) (w₂ : Mat 128 128) (b₂ : Row 128) (w : Mat 128 128) (b : Row 128) : Mat 50000 128 := fun i =>
  (∑ j : Fin 128, ssp ((∑ k : Fin 128, agg (ix2 (i 0) k) * w₂ (ix2 j k)) + b₂ (ix1 j)) * w (ix2 (i 1) j)) + b (ix1 (i 1))

end Cert.Spec

end
-- ==== Proof.LibMatmulTransposedRhs.lean ====
/-
  A general lemma. The matrix product of an [M, K] array by the TRANSPOSE of an [N, K] array (both operands
  contracted on their second axis, no batch axes), accumulated into the zero array and read at the exact
  instance, is at entry (p, q) the finite sum over the contraction coordinate k of left (p, k) · right (q, k).
  It holds for all sizes and both operands' formats.
-/
import Idealize.ShloMosaic.Lib.ValueIdx
import Idealize.ShloMosaic.PureOps.Ideal.Laws

namespace Idealize.ShloMosaic.MatmulTransposedRhs

open Idealize.ShloMosaic Idealize.ShloMosaic.ValueIdx

variable {M K N : ℕ}

/-- The left operand's row coordinate is the result's row coordinate. -/
theorem lhs_row (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction coordinate. -/
theorem lhs_col (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row coordinate is the result's column coordinate. -/
theorem rhs_row (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction coordinate. -/
theorem rhs_col (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- Entry (p, q) of the product by the transpose, into a zero accumulator, is ∑ k, left (p, k) · right (q, k). -/
theorem matmul_zero_apply {φ₁ φ₂ : FTy} (prec : Option ContractPrecision)
    (l : FVec Ideal ⟨2, ![M, K]⟩ φ₁) (r : FVec Ideal ⟨2, ![N, K]⟩ φ₂) (p : Fin M) (q : Fin N) :
    matmul (DotDims.transposedRhs M K N) prec l r (constant ⟨2, ![M, N]⟩ .f32 0x00000000#32) (ix2 p q)
      = ∑ k : Fin K, l (ix2 p k) * r (ix2 q k) := by
  show FloatOps.matmul (DotDims.transposedRhs M K N) prec l r (constant ⟨2, ![M, N]⟩ .f32 0x00000000#32) (ix2 p q) = _
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row _ _
      | ⟨1, _⟩ => exact (lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row _ _
      | ⟨1, _⟩ => exact (rhs_col _ _).trans hk)
  rw [el, er]

end Idealize.ShloMosaic.MatmulTransposedRhs
-- ==== Proof.Region0.lean ====
/-
  The edge-filter region: its result array after the run, as one function of the arrays the region finds
  when it is entered.

  The grid has 200 points; point t reads rows 4000·t … 4000·t + 3999 of the packed features (columns 0 … 49
  the edge attributes, column 50 the edge distance) and the whole of the two weights and the two biases, and
  writes the same rows of the result. Entry (p, q) of what the body stores is
    ((∑ j, ssp ((∑ k, block p k · w₁ j k) + b₁ j) · w₂ q j) + b₂ q) · cutoff (block p 50):
  the attribute columns times the transposed first weight, plus the first bias along the rows; the shifted
  softplus entry by entry; that times the transposed second weight, plus the second bias along the rows; and
  the cutoff of the distance column along the columns. A narrowing of the format is the identity on the
  extended reals, so the two products are exact sums. The blocks are therefore the restrictions of
  `Spec.edgeFilterPacked`, and they tile the array (row r lies in block r / 4000).
-/
import proofs.«132775_j14370960572978_1_alg».proof.Proof.Gen.KernelIdeal.Frame
import proofs.«132775_j14370960572978_1_alg».proof.Proof.Spec
import proofs.«132775_j14370960572978_1_alg».proof.Proof.LibMatmulTransposedRhs
import Idealize.ShloMosaic.Lib.Pipeline.Value
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

/-- The packed features and the four parameters as the region finds them, at their literal types. -/
abbrev feat (c : Dev nD) : Cert.Spec.Mat 800000 51 := V c main_v5
abbrev w1 (c : Dev nD) : Cert.Spec.Mat 128 50 := V c main_arg4
abbrev b1 (c : Dev nD) : Cert.Spec.Row 128 := V c main_arg5
abbrev w2 (c : Dev nD) : Cert.Spec.Mat 128 128 := V c main_arg6
abbrev b2 (c : Dev nD) : Cert.Spec.Row 128 := V c main_arg7

/-- The zero offsets of a whole rank-2 and a whole rank-1 rectangle, as constant functions. -/
theorem hz : (![0, 0] : Fin 2 → Nat) = fun _ => 0 := funext fun a => by fin_cases a <;> rfl
theorem hz1 : (![0] : Fin 1 → Nat) = fun _ => 0 := funext fun a => by fin_cases a; rfl

/-- An [a, 1] column broadcast to [a, b] reads, at (p, c), the column at row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The distance column through the body's cosine cutoff: 1/2 · (cos (d · κ) + 1) at every row. -/
theorem cut_apply (x : Vec Ideal S4000x1 .f32) (p : Fin 4000) (u : Fin 1) :
    k0_pay2 (F := Ideal) x (ix2 p u) = Cert.Spec.cutoff (x (ix2 p u)) := by
  unfold k0_pay2
  simp only [shapeCast_self]
  rfl

/-- The second bias viewed as one row reads, at column q, the bias at q. -/
theorem bias_apply (x : Vec Ideal S128 .f32) (u : Fin 1) (q : Fin 128) :
    k0_pay4 (F := Ideal) x (ix2 u q) = x (ix1 q) := by
  unfold k0_pay4
  exact shapeCast_a_1a_apply x _ u q

/-- Entry (p, q) of what is stored: the second product plus the bias row, times the cutoff column. -/
theorem pay1_apply (v10 : FVec Ideal S4000x1 .f32) (v38 : FVec Ideal S4000x128 .f32) (v40 : FVec Ideal S1x128 .f32) (p : Fin 4000) (q : Fin 128) :
    k0_pay1 (F := Ideal) v10 v38 v40 (ix2 p q) = (v38 (ix2 p q) + v40 (ix2 (0 : Fin 1) q)) * v10 (ix2 p (0 : Fin 1)) := by
  unfold k0_pay1
  show (v38 (ix2 p q) + broadcastTo S4000x128 v40 broadcasts_S1x128_S4000x128 (ix2 p q)) * broadcastTo S4000x128 v10 broadcasts_S4000x1_S4000x128 (ix2 p q) = _
  rw [broadcastTo_1b_ab_apply, broadcastTo_a1_ab_apply]

/-- The first layer before its activation: the attributes times the transposed first weight, plus the first bias
    along the rows. -/
def pre (x0 : Vec Ideal S4000x50 .f32) (x1 : Vec Ideal S128x50 .f32) (x2 : Vec Ideal S128 .f32) : FVec Ideal S4000x128 .f32 :=
  addf (matmul dot_S4000x50_S128x50_S4000x128_1_1_0_0_n_n none
      (truncf .bf16 (shapeCast S4000x50 x0 shapeCasts_S4000x50_S4000x50 : FVec Ideal S4000x50 .f32) bitsLt_bf16_f32)
      (truncf .bf16 (x1 : FVec Ideal S128x50 .f32) bitsLt_bf16_f32) (constant S4000x128 .f32 0x00000000#32))
    (broadcastTo S4000x128 (shapeCast S1x128 x2 shapeCasts_S128_S1x128 : FVec Ideal S1x128 .f32) broadcasts_S1x128_S4000x128)

/-- The activation as the body spells it, with z the zero array: select (h - z ≠ h - z) (h + z)
    (max h z + log1p (exp (z - |h - z|))), minus the shift. -/
def act (h : FVec Ideal S4000x128 .f32) : FVec Ideal S4000x128 .f32 :=
  subf (select (cmpf .one (subf h (broadcast S4000x128 (Scalar.ofBits .f32 0x00000000#32))) (subf h (broadcast S4000x128 (Scalar.ofBits .f32 0x00000000#32))))
      (addf h (broadcast S4000x128 (Scalar.ofBits .f32 0x00000000#32)))
      (addf (maximumf h (broadcast S4000x128 (Scalar.ofBits .f32 0x00000000#32)))
        (log1p (exp (subf (broadcast S4000x128 (Scalar.ofBits .f32 0x00000000#32)) (absf (subf h (broadcast S4000x128 (Scalar.ofBits .f32 0x00000000#32)))))))))
    (broadcast S4000x128 (Scalar.ofBits .f32 0x3F317218#32))

/-- The second product's payload is the activated first layer times the transposed second weight. -/
theorem pay3_eq (x0 : Vec Ideal S4000x50 .f32) (x1 : Vec Ideal S128x50 .f32) (x2 : Vec Ideal S128 .f32) (x3 : Vec Ideal S128x128 .f32) :
    k0_pay3 (F := Ideal) x0 x1 x2 x3
      = matmul dot_S4000x128_S128x128_S4000x128_1_1_0_0_n_n none (truncf .bf16 (act (pre x0 x1 x2)) bitsLt_bf16_f32)
          (truncf .bf16 (x3 : FVec Ideal S128x128 .f32) bitsLt_bf16_f32) (constant S4000x128 .f32 0x00000000#32) := rfl

/-- The activation at an entry is the shifted softplus of the entry. -/
theorem act_apply (h : FVec Ideal S4000x128 .f32) (i : S4000x128.Idx) : act h i = Cert.Spec.ssp (h i) :=
  Cert.Spec.ssp_of_sub (h i)

/-- Entry (p, j) of the first layer before its activation. -/
theorem pre_apply (x0 : Vec Ideal S4000x50 .f32) (x1 : Vec Ideal S128x50 .f32) (x2 : Vec Ideal S128 .f32) (p : Fin 4000) (j : Fin 128) :
    pre x0 x1 x2 (ix2 p j) = (∑ k : Fin 50, x0 (ix2 p k) * x1 (ix2 j k)) + x2 (ix1 j) := by
  unfold pre
  rw [addf_apply, broadcastTo_1b_ab_apply, shapeCast_a_1a_apply, shapeCast_self]
  congr 1
  exact MatmulTransposedRhs.matmul_zero_apply (M := 4000) (K := 50) (N := 128) none _ _ p j

/-- Entry (p, q) of the second product. -/
theorem pay3_apply (x0 : Vec Ideal S4000x50 .f32) (x1 : Vec Ideal S128x50 .f32) (x2 : Vec Ideal S128 .f32) (x3 : Vec Ideal S128x128 .f32) (p : Fin 4000) (q : Fin 128) :
    k0_pay3 (F := Ideal) x0 x1 x2 x3 (ix2 p q)
      = ∑ j : Fin 128, Cert.Spec.ssp ((∑ k : Fin 50, x0 (ix2 p k) * x1 (ix2 j k)) + x2 (ix1 j)) * x3 (ix2 q j) := by
  rw [pay3_eq]
  refine (MatmulTransposedRhs.matmul_zero_apply (M := 4000) (K := 128) (N := 128) none _ _ p q).trans ?_
  refine Finset.sum_congr rfl fun j _ => ?_
  show act (pre x0 x1 x2) (ix2 p j) * x3 (ix2 q j) = _
  rw [act_apply, pre_apply]

/-- Local column k of the attribute rectangle is column k of the packed block. -/
theorem attr_idx (p : Fin 4000) (k : Fin 50) :
    r0_0.idx (ix2 p k) = ix2 p (Fin.castLE (by decide : 50 ≤ 51) k) := by
  funext a; apply Fin.ext
  match a with
  | ⟨0, _⟩ => show 0 + 1 * p.val = p.val; omega
  | ⟨1, _⟩ => show 0 + 1 * k.val = k.val; omega

/-- The one column of the distance rectangle is column 50 of the packed block. -/
theorem dist_idx (p : Fin 4000) (u : Fin 1) :
    r0_1.idx (ix2 p u) = ix2 p (⟨50, by decide⟩ : Fin 51) := by
  funext a; apply Fin.ext
  match a with
  | ⟨0, _⟩ => show 0 + 1 * p.val = p.val; omega
  | ⟨1, _⟩ => show 50 + 1 * u.val = 50; omega

/-- Entry (p, q) of what the body stores, from the five blocks it loads. -/
theorem out_apply (x0 : Vec Ideal S4000x51 .f32) (x1 : Vec Ideal S128x50 .f32) (x2 : Vec Ideal S128 .f32) (x3 : Vec Ideal S128x128 .f32) (x4 : Vec Ideal S128 .f32) (p : Fin 4000) (q : Fin 128) :
    out0_5 (F := Ideal) x0 x1 x2 x3 x4 (ix2 p q)
      = ((∑ j : Fin 128, Cert.Spec.ssp ((∑ k : Fin 50, x0 (ix2 p (Fin.castLE (by decide : 50 ≤ 51) k)) * x1 (ix2 j k)) + x2 (ix1 j)) * x3 (ix2 q j)) + x4 (ix1 q))
        * Cert.Spec.cutoff (x0 (ix2 p (⟨50, by decide⟩ : Fin 51))) := by
  unfold out0_5
  rw [View.canon_unit_zero hz]
  simp only [View.ld_unit_zero (S := S128x50) hz, View.ld_unit_zero (S := S128x128) hz, View.ld_unit_zero (S := S128) hz1]
  rw [pay1_apply, pay3_apply, cut_apply, bias_apply]
  show ((∑ j : Fin 128, Cert.Spec.ssp ((∑ k : Fin 50, x0 (r0_0.idx (ix2 p k)) * x1 (ix2 j k)) + x2 (ix1 j)) * x3 (ix2 q j)) + x4 (ix1 q))
      * Cert.Spec.cutoff (x0 (r0_1.idx (ix2 p (0 : Fin 1)))) = _
  simp only [attr_idx, dist_idx]

/-- The index maps over the grid: the feature window and the result window move together along the rows, the four
    parameter windows stay, and no window moves along the columns. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = t.val ∧ win0_5.index t (1 : Fin 2) = 0 :=
  (by decide +kernel : ∀ t : Fin grid0.N, _)

/-- What point t writes back is block t of the edge filter of the arrays the region was entered with. -/
theorem flushed_eq (c : Dev nD) (t : Fin cfg0.N) :
    (dat0 (F := Ideal) V c).flushed 5 t
      = ((cfg0.win 5).blk t).view.read (Elt Ideal)
          (Cert.Spec.edgeFilterPacked (feat V c) (w1 V c) (b1 V c) (w2 V c) (b2 V c)) := by
  show (cfg0.win 5).cut (grid0.coords t) ((dat0 (F := Ideal) V c).after 5 t) = _
  rw [after0_5]
  obtain ⟨e00, e01, e10, e11, e20, e30, e31, e40, e50, e51⟩ := idx_facts t
  funext j
  obtain ⟨p, q, rfl⟩ : ∃ (p : Fin 4000) (q : Fin 128), j = ix2 p q := ⟨j 0, j 1, eq_ix2 j⟩
  refine (out_apply _ _ _ _ _ p q).trans ?_
  show _ = Cert.Spec.edgeFilterPacked (feat V c) (w1 V c) (b1 V c) (w2 V c) (b2 V c) (((cfg0.win 5).blk t).view.emb (ix2 p q))
  unfold Cert.Spec.edgeFilterPacked
  have h0 : ∀ k : Fin 51, ((cfg0.win 0).blk t).view.emb (ix2 p k) = ix2 ((((cfg0.win 5).blk t).view.emb (ix2 p q)) 0) k := fun k => by
    funext a; apply Fin.ext
    match a with
    | ⟨0, _⟩ => show win0_0.index t (0 : Fin 2) * 4000 + 1 * p.val = win0_5.index t (0 : Fin 2) * 4000 + 1 * p.val; omega
    | ⟨1, _⟩ => show win0_0.index t (1 : Fin 2) * 51 + 1 * k.val = k.val; omega
  have h1 : ∀ (j : Fin 128) (k : Fin 50), ((cfg0.win 1).blk t).view.emb (ix2 j k) = ix2 j k := fun j k => by
    funext a; apply Fin.ext
    match a with
    | ⟨0, _⟩ => show win0_1.index t (0 : Fin 2) * 128 + 1 * j.val = j.val; omega
    | ⟨1, _⟩ => show win0_1.index t (1 : Fin 2) * 50 + 1 * k.val = k.val; omega
  have h2 : ∀ j : Fin 128, ((cfg0.win 2).blk t).view.emb (ix1 j) = ix1 j := fun j => by
    funext a; apply Fin.ext
    match a with
    | ⟨0, _⟩ => show win0_2.index t (0 : Fin 1) * 128 + 1 * j.val = j.val; omega
  have h3 : ∀ j : Fin 128, ((cfg0.win 3).blk t).view.emb (ix2 q j) = ix2 ((((cfg0.win 5).blk t).view.emb (ix2 p q)) 1) j := fun j => by
    funext a; apply Fin.ext
    match a with
    | ⟨0, _⟩ => show win0_3.index t (0 : Fin 2) * 128 + 1 * q.val = win0_5.index t (1 : Fin 2) * 128 + 1 * q.val; omega
    | ⟨1, _⟩ => show win0_3.index t (1 : Fin 2) * 128 + 1 * j.val = j.val; omega
  have h4 : ((cfg0.win 4).blk t).view.emb (ix1 q) = ix1 ((((cfg0.win 5).blk t).view.emb (ix2 p q)) 1) := by
    funext a; apply Fin.ext
    match a with
    | ⟨0, _⟩ => show win0_4.index t (0 : Fin 1) * 128 + 1 * q.val = win0_5.index t (1 : Fin 2) * 128 + 1 * q.val; omega
  show ((∑ j : Fin 128, Cert.Spec.ssp ((∑ k : Fin 50, feat V c (((cfg0.win 0).blk t).view.emb (ix2 p (Fin.castLE (by decide : 50 ≤ 51) k)))
          * w1 V c (((cfg0.win 1).blk t).view.emb (ix2 j k))) + b1 V c (((cfg0.win 2).blk t).view.emb (ix1 j)))
        * w2 V c (((cfg0.win 3).blk t).view.emb (ix2 q j))) + b2 V c (((cfg0.win 4).blk t).view.emb (ix1 q)))
      * Cert.Spec.cutoff (feat V c (((cfg0.win 0).blk t).view.emb (ix2 p (⟨50, by decide⟩ : Fin 51)))) = _
  simp only [h0, h1, h2, h3, h4]
  rfl

/-- An index of the result lies in point t's block iff its row is among the block's 4000 rows. -/
theorem mem_blk (t : Fin cfg0.N) (i : S800000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v6).slice (win0_5.rect t)).set ↔ _
  rw [View.set_slice_whole, Rect.mem_set_unit]
  exact Iff.rfl

/-- The result array after the region is the edge filter of the packed features and the four parameters the
    region was entered with. -/
theorem result (c : Dev nD) :
    (dat0 (F := Ideal) V c).arrAt 5 cfg0.N
      = Cert.Spec.edgeFilterPacked (V c main_v5) (V c main_arg4) (V c main_arg5) (V c main_arg6) (V c main_arg7) :=
  (dat0 (F := Ideal) V c).arrAt_eq_of_cover 5 _ (fun t _ => flushed_eq V c t) fun i => by
    have hi0 : (i 0).val < 800000 := (i 0).isLt
    have hi1 : (i 1).val < 128 := (i 1).isLt
    have hN : grid0.N = 200 := N_0
    refine ⟨⟨(i 0).val / 4000, by show (i 0).val / 4000 < grid0.N; omega⟩, flush0_5 _, ?_⟩
    rw [mem_blk]
    obtain ⟨e00, e01, e10, e11, e20, e30, e31, e40, e50, e51⟩ := idx_facts ⟨(i 0).val / 4000, by show (i 0).val / 4000 < grid0.N; omega⟩
    intro a
    match a with
    | ⟨0, _⟩ => show win0_5.index _ (0 : Fin 2) * 4000 ≤ (i 0).val ∧ (i 0).val < win0_5.index _ (0 : Fin 2) * 4000 + 4000; rw [e50]; show (i 0).val / 4000 * 4000 ≤ (i 0).val ∧ (i 0).val < (i 0).val / 4000 * 4000 + 4000; omega
    | ⟨1, _⟩ => show win0_5.index _ (1 : Fin 2) * 128 ≤ (i 1).val ∧ (i 1).val < win0_5.index _ (1 : Fin 2) * 128 + 128; rw [e51]; omega

end Cert.KernelIdeal.Region0

end
-- ==== Proof.Region1.lean ====
/-
  The node projection region: its result array after the run, as one function of the arrays the region
  finds when it is entered.

  The grid has ten points; point t reads rows 5000·t … 5000·t + 4999 of the node features and the whole
  128 × 128 weight, and writes the same rows of the result. Entry (p, q) of what the body stores is the
  product of the block by the transposed weight, ∑ k, block p k · weight q k, so row 5000·t + p of the
  result is ∑ k, x (5000·t + p) k · weight q k: the blocks are the restrictions of `Spec.nodeProj`, and
  they tile the array (row r lies in block r / 5000).
-/
import proofs.«132775_j14370960572978_1_alg».proof.Proof.Gen.KernelIdeal.Frame
import proofs.«132775_j14370960572978_1_alg».proof.Proof.Spec
import proofs.«132775_j14370960572978_1_alg».proof.Proof.LibMatmulTransposedRhs
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The node features and the weight as the region finds them, at their literal types. -/
abbrev feat (c : Dev nD) : Cert.Spec.Mat 50000 128 := V c main_arg0
abbrev weight (c : Dev nD) : Cert.Spec.Mat 128 128 := V c main_arg8

/-- Entry (p, q) of what the body stores: the block times the transposed weight. -/
theorem pay_apply (x0 : Vec Ideal S5000x128 .f32) (x1 : Vec Ideal S128x128 .f32) (p : Fin 5000) (q : Fin 128) :
    k1_pay1 (F := Ideal) x0 x1 (ix2 p q) = ∑ k : Fin 128, x0 (ix2 p k) * x1 (ix2 q k) := by
  unfold k1_pay1
  exact MatmulTransposedRhs.matmul_zero_apply (M := 5000) (K := 128) (N := 128) none _ _ p q

/-- The index maps over the grid: the feature window and the result window move together along the rows, the
    weight window stays, and no window moves along the columns. -/
theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) = t.val :=
  (by decide +kernel : ∀ t : Fin grid1.N, _)

/-- What point t writes back is block t of the projection of the arrays the region was entered with. -/
theorem flushed_eq (c : Dev nD) (t : Fin cfg1.N) :
    (dat1 (F := Ideal) V c).flushed 2 t
      = ((cfg1.win 2).blk t).view.read (Elt Ideal) (Cert.Spec.nodeProj (feat V c) (weight V c)) := by
  show (cfg1.win 2).cut (grid1.coords t) ((dat1 (F := Ideal) V c).after 2 t) = _
  rw [after1_2]
  unfold out1_2
  rw [View.canon_unit_zero hz]
  simp only [View.ld_unit_zero (S := S5000x128) hz, View.ld_unit_zero (S := S128x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  refine (pay_apply _ _ p q).trans ?_
  show _ = Cert.Spec.nodeProj (feat V c) (weight V c) (((cfg1.win 2).blk t).view.emb (ix2 p q))
  unfold Cert.Spec.nodeProj
  refine Finset.sum_congr rfl fun k _ => ?_
  have h0 : ((cfg1.win 0).blk t).view.emb (ix2 p k) = ix2 ((((cfg1.win 2).blk t).view.emb (ix2 p q)) 0) k := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * k.val = k.val; omega
  have h1 : ((cfg1.win 1).blk t).view.emb (ix2 q k) = ix2 ((((cfg1.win 2).blk t).view.emb (ix2 p q)) 1) k := by
    funext a; apply Fin.ext
    match a with
    | ⟨0, _⟩ => show win1_1.index t (0 : Fin 2) * 128 + 1 * q.val = win1_2.index t (1 : Fin 2) * 128 + 1 * q.val; omega
    | ⟨1, _⟩ => show win1_1.index t (1 : Fin 2) * 128 + 1 * k.val = k.val; omega
  show feat V c (((cfg1.win 0).blk t).view.emb (ix2 p k)) * weight V c (((cfg1.win 1).blk t).view.emb (ix2 q k)) = _
  rw [h0, h1]
  rfl

/-- An index of the result lies in point t's block iff its row is among the block's 5000 rows. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v7).slice (win1_2.rect t)).set ↔ _
  rw [View.set_slice_whole, Rect.mem_set_unit]
  exact Iff.rfl

/-- The result array after the region is the projection of the arrays it was entered with. -/
theorem result (c : Dev nD) :
    (dat1 (F := Ideal) V c).arrAt 2 cfg1.N = Cert.Spec.nodeProj (V c main_arg0) (V c main_arg8) :=
  (dat1 (F := Ideal) V c).arrAt_eq_of_cover 2 _ (fun t _ => flushed_eq V c t) fun i => by
    have hi0 : (i 0).val < 50000 := (i 0).isLt
    have hi1 : (i 1).val < 128 := (i 1).isLt
    have hN : grid1.N = 10 := N_1
    refine ⟨⟨(i 0).val / 5000, by show (i 0).val / 5000 < grid1.N; omega⟩, flush1_2 _, ?_⟩
    rw [mem_blk]
    obtain ⟨e0, e1, e2, e3, e4, e5⟩ := idx_facts ⟨(i 0).val / 5000, by show (i 0).val / 5000 < grid1.N; omega⟩
    intro a
    match a with
    | ⟨0, _⟩ => show win1_2.index _ (0 : Fin 2) * 5000 ≤ (i 0).val ∧ (i 0).val < win1_2.index _ (0 : Fin 2) * 5000 + 5000; rw [e5]; show (i 0).val / 5000 * 5000 ≤ (i 0).val ∧ (i 0).val < (i 0).val / 5000 * 5000 + 5000; omega
    | ⟨1, _⟩ => show win1_2.index _ (1 : Fin 2) * 128 ≤ (i 1).val ∧ (i 1).val < win1_2.index _ (1 : Fin 2) * 128 + 128; rw [e4]; omega

end Cert.KernelIdeal.Region1

end
-- ==== Proof.Region2.lean ====
/-
  The node-update region: its result array after the run, as one function of the arrays the region finds
  when it is entered.

  The grid has ten points; point t reads rows 5000·t … 5000·t + 4999 of the aggregated messages and the whole
  of the two 128 × 128 weights and the two biases, and writes the same rows of the result. Entry (p, q) of
  what the body stores is
      (∑ j, ssp ((∑ k, block p k · w₂ j k) + b₂ j) · w q j) + b q :
  a product by the transposed first weight, the first bias laid as one row and repeated over the rows, the
  shifted softplus entry by entry (in the body's spelling, which `Spec.ssp_of_sub` identifies), a product of
  that block by the transposed second weight, and the second bias repeated over the rows. So row 5000·t + p of
  the result is row 5000·t + p of `Spec.nodeUpdate`: the blocks are the restrictions of the node update, and
  they tile the array (row r lies in block r / 5000).
-/
import proofs.«132775_j14370960572978_1_alg».proof.Proof.Gen.KernelIdeal.Frame
import proofs.«132775_j14370960572978_1_alg».proof.Proof.Spec
import proofs.«132775_j14370960572978_1_alg».proof.Proof.LibMatmulTransposedRhs
import Idealize.ShloMosaic.Lib.Pipeline.Value
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The arrays the region finds, at their literal types. -/
abbrev agg (c : Dev nD) : Cert.Spec.Mat 50000 128 := V c main_v18
abbrev w₂ (c : Dev nD) : Cert.Spec.Mat 128 128 := V c main_arg9
abbrev b₂ (c : Dev nD) : Cert.Spec.Row 128 := V c main_arg10
abbrev w₃ (c : Dev nD) : Cert.Spec.Mat 128 128 := V c main_arg11
abbrev b₃ (c : Dev nD) : Cert.Spec.Row 128 := V c main_arg12

/-- A vector of 128 entries laid as one row and repeated over 5000 rows reads, at (p, q), its entry q. -/
theorem bias_apply (x : Vec Ideal S128 .f32) (p : Fin 5000) (q : Fin 128) :
    broadcastTo S5000x128 (shapeCast S1x128 x shapeCasts_S128_S1x128) broadcasts_S1x128_S5000x128 (ix2 p q) = x (ix1 q) :=
  (broadcastTo_1b_ab_apply _ _ p q).trans (shapeCast_a_1a_apply x _ 0 q)

/-- The first layer before its activation: the block times the transposed first weight, plus the first bias. -/
def pre (x0 : Vec Ideal S5000x128 .f32) (x1 : Vec Ideal S128x128 .f32) (x2 : Vec Ideal S128 .f32) : FVec Ideal S5000x128 .f32 :=
  addf (matmul dot_S5000x128_S128x128_S5000x128_1_1_0_0_n_n none
      (truncf .bf16 (shapeCast S5000x128 x0 shapeCasts_S5000x128_S5000x128) bitsLt_bf16_f32) (truncf .bf16 x1 bitsLt_bf16_f32)
      (constant S5000x128 .f32 0x00000000#32))
    (broadcastTo S5000x128 (shapeCast S1x128 x2 shapeCasts_S128_S1x128) broadcasts_S1x128_S5000x128)

theorem pre_apply (x0 : Vec Ideal S5000x128 .f32) (x1 : Vec Ideal S128x128 .f32) (x2 : Vec Ideal S128 .f32) (p : Fin 5000) (j : Fin 128) :
    pre x0 x1 x2 (ix2 p j) = (∑ k : Fin 128, x0 (ix2 p k) * x1 (ix2 j k)) + x2 (ix1 j) := by
  unfold pre
  rw [shapeCast_self, addf_apply, bias_apply]
  congr 1
  exact MatmulTransposedRhs.matmul_zero_apply (M := 5000) (K := 128) (N := 128) none _ _ p j

/-- The activation as the body spells it, on a whole block. -/
def act (v9 : FVec Ideal S5000x128 .f32) : FVec Ideal S5000x128 .bf16 :=
  have cst_4 : Ideal .f32 := Scalar.ofBits .f32 0x00000000#32
  have v10 : FVec Ideal S5000x128 .f32 := broadcast S5000x128 cst_4
  have v11 : FVec Ideal S5000x128 .f32 := maximumf v9 v10
  have v12 : FVec Ideal S5000x128 .f32 := broadcast S5000x128 cst_4
  have v13 : FVec Ideal S5000x128 .f32 := subf v9 v12
  have v14 : IVec S5000x128 1 := cmpf .one v13 v13
  have v15 : FVec Ideal S5000x128 .f32 := broadcast S5000x128 cst_4
  have v16 : FVec Ideal S5000x128 .f32 := addf v9 v15
  have v17 : FVec Ideal S5000x128 .f32 := absf v13
  have cst_5 : Ideal .f32 := Scalar.ofBits .f32 0x00000000#32
  have v18 : FVec Ideal S5000x128 .f32 := broadcast S5000x128 cst_5
  have v19 : FVec Ideal S5000x128 .f32 := subf v18 v17
  have v20 : FVec Ideal S5000x128 .f32 := exp v19
  have v21 : FVec Ideal S5000x128 .f32 := log1p v20
  have v22 : FVec Ideal S5000x128 .f32 := addf v11 v21
  have v23 : FVec Ideal S5000x128 .f32 := select v14 v16 v22
  have cst_6 : Ideal .f32 := Scalar.ofBits .f32 0x3F317218#32
  have v24 : FVec Ideal S5000x128 .f32 := broadcast S5000x128 cst_6
  have v25 : FVec Ideal S5000x128 .f32 := subf v23 v24
  truncf .bf16 v25 bitsLt_bf16_f32

/-- At every entry the activation is the shifted softplus. -/
theorem act_apply (y : FVec Ideal S5000x128 .f32) (i : S5000x128.Idx) : act y i = Cert.Spec.ssp (y i) :=
  Cert.Spec.ssp_of_sub (y i)

/-- The stored value as the second product of the activated first layer, plus the second bias. -/
theorem pay_eq (x0 : Vec Ideal S5000x128 .f32) (x1 : Vec Ideal S128x128 .f32) (x2 : Vec Ideal S128 .f32)
    (x3 : Vec Ideal S128x128 .f32) (x4 : Vec Ideal S128 .f32) :
    k2_pay1 (F := Ideal) x0 x1 x2 x3 x4
      = addf (matmul dot_S5000x128_S128x128_S5000x128_1_1_0_0_n_n none (act (pre x0 x1 x2)) (truncf .bf16 x3 bitsLt_bf16_f32)
          (constant S5000x128 .f32 0x00000000#32))
        (broadcastTo S5000x128 (shapeCast S1x128 x4 shapeCasts_S128_S1x128) broadcasts_S1x128_S5000x128) := rfl

/-- Entry (p, q) of what the body stores. -/
theorem pay_apply (x0 : Vec Ideal S5000x128 .f32) (x1 : Vec Ideal S128x128 .f32) (x2 : Vec Ideal S128 .f32)
    (x3 : Vec Ideal S128x128 .f32) (x4 : Vec Ideal S128 .f32) (p : Fin 5000) (q : Fin 128) :
    k2_pay1 (F := Ideal) x0 x1 x2 x3 x4 (ix2 p q)
      = (∑ j : Fin 128, Cert.Spec.ssp ((∑ k : Fin 128, x0 (ix2 p k) * x1 (ix2 j k)) + x2 (ix1 j)) * x3 (ix2 q j)) + x4 (ix1 q) := by
  rw [pay_eq, addf_apply, bias_apply]
  congr 1
  refine (MatmulTransposedRhs.matmul_zero_apply (M := 5000) (K := 128) (N := 128) none (act (pre x0 x1 x2)) _ p q).trans ?_
  refine Finset.sum_congr rfl fun j _ => ?_
  rw [act_apply, pre_apply]
  rfl

/-- The index maps over the grid: the message window and the result window move together along the rows, the
    four parameter windows stay, and no window moves along the columns. -/
theorem idx_facts : ∀ t : Fin cfg2.N, win2_0.index t (0 : Fin 2) = win2_5.index t (0 : Fin 2)
    ∧ win2_0.index t (1 : Fin 2) = 0 ∧ win2_1.index t (0 : Fin 2) = 0 ∧ win2_1.index t (1 : Fin 2) = 0
    ∧ win2_2.index t (0 : Fin 1) = 0 ∧ win2_3.index t (0 : Fin 2) = 0 ∧ win2_3.index t (1 : Fin 2) = 0
    ∧ win2_4.index t (0 : Fin 1) = 0 ∧ win2_5.index t (1 : Fin 2) = 0 ∧ win2_5.index t (0 : Fin 2) = t.val :=
  (by decide +kernel : ∀ t : Fin grid2.N, _)

/-- What point t writes back is block t of the node update of the arrays the region was entered with. -/
theorem flushed_eq (c : Dev nD) (t : Fin cfg2.N) :
    (dat2 (F := Ideal) V c).flushed 5 t
      = ((cfg2.win 5).blk t).view.read (Elt Ideal)
          (Cert.Spec.nodeUpdate (agg V c) (w₂ V c) (b₂ V c) (w₃ V c) (b₃ V c)) := by
  show (cfg2.win 5).cut (grid2.coords t) ((dat2 (F := Ideal) V c).after 5 t) = _
  rw [after2_5]
  unfold out2_5
  rw [View.canon_unit_zero hz]
  simp only [View.ld_unit_zero (S := S5000x128) hz, View.ld_unit_zero (S := S128x128) hz, View.ld_unit_zero (S := S128) hz1]
  obtain ⟨e0, e1, e2, e3, e4, e5, e6, e7, e8, e9⟩ := idx_facts t
  funext j
  obtain ⟨p, q, rfl⟩ : ∃ (p : Fin 5000) (q : Fin 128), j = ix2 p q := ⟨j 0, j 1, eq_ix2 j⟩
  refine (pay_apply _ _ _ _ _ p q).trans ?_
  show _ = Cert.Spec.nodeUpdate (agg V c) (w₂ V c) (b₂ V c) (w₃ V c) (b₃ V c) (((cfg2.win 5).blk t).view.emb (ix2 p q))
  unfold Cert.Spec.nodeUpdate
  have h0 : ∀ k : Fin 128, ((cfg2.win 0).blk t).view.emb (ix2 p k) = ix2 ((((cfg2.win 5).blk t).view.emb (ix2 p q)) 0) k := fun k => by
    funext a; apply Fin.ext
    match a with
    | ⟨0, _⟩ => show win2_0.index t (0 : Fin 2) * 5000 + 1 * p.val = win2_5.index t (0 : Fin 2) * 5000 + 1 * p.val; omega
    | ⟨1, _⟩ => show win2_0.index t (1 : Fin 2) * 128 + 1 * k.val = k.val; omega
  have h1 : ∀ j k : Fin 128, ((cfg2.win 1).blk t).view.emb (ix2 j k) = ix2 j k := fun j k => by
    funext a; apply Fin.ext
    match a with
    | ⟨0, _⟩ => show win2_1.index t (0 : Fin 2) * 128 + 1 * j.val = j.val; omega
    | ⟨1, _⟩ => show win2_1.index t (1 : Fin 2) * 128 + 1 * k.val = k.val; omega
  have h2 : ∀ j : Fin 128, ((cfg2.win 2).blk t).view.emb (ix1 j) = ix1 j := fun j => by
    funext a; apply Fin.ext
    match a with
    | ⟨0, _⟩ => show win2_2.index t (0 : Fin 1) * 128 + 1 * j.val = j.val; omega
  have h3 : ∀ j : Fin 128, ((cfg2.win 3).blk t).view.emb (ix2 q j) = ix2 ((((cfg2.win 5).blk t).view.emb (ix2 p q)) 1) j := fun j => by
    funext a; apply Fin.ext
    match a with
    | ⟨0, _⟩ => show win2_3.index t (0 : Fin 2) * 128 + 1 * q.val = win2_5.index t (1 : Fin 2) * 128 + 1 * q.val; omega
    | ⟨1, _⟩ => show win2_3.index t (1 : Fin 2) * 128 + 1 * j.val = j.val; omega
  have h4 : ((cfg2.win 4).blk t).view.emb (ix1 q) = ix1 ((((cfg2.win 5).blk t).view.emb (ix2 p q)) 1) := by
    funext a; apply Fin.ext
    match a with
    | ⟨0, _⟩ => show win2_4.index t (0 : Fin 1) * 128 + 1 * q.val = win2_5.index t (1 : Fin 2) * 128 + 1 * q.val; omega
  have hA : ∀ k : Fin 128, iblk2 V c 0 t (ix2 p k) = agg V c (ix2 ((((cfg2.win 5).blk t).view.emb (ix2 p q)) 0) k) := fun k => by
    show agg V c (((cfg2.win 0).blk t).view.emb (ix2 p k)) = _
    rw [h0 k]
    rfl
  have hW₂ : ∀ j k : Fin 128, iblk2 V c 1 t (ix2 j k) = w₂ V c (ix2 j k) := fun j k => by
    show w₂ V c (((cfg2.win 1).blk t).view.emb (ix2 j k)) = _
    rw [h1 j k]
  have hB₂ : ∀ j : Fin 128, iblk2 V c 2 t (ix1 j) = b₂ V c (ix1 j) := fun j => by
    show b₂ V c (((cfg2.win 2).blk t).view.emb (ix1 j)) = _
    rw [h2 j]
  have hW₃ : ∀ j : Fin 128, iblk2 V c 3 t (ix2 q j) = w₃ V c (ix2 ((((cfg2.win 5).blk t).view.emb (ix2 p q)) 1) j) := fun j => by
    show w₃ V c (((cfg2.win 3).blk t).view.emb (ix2 q j)) = _
    rw [h3 j]
    rfl
  have hB₃ : iblk2 V c 4 t (ix1 q) = b₃ V c (ix1 ((((cfg2.win 5).blk t).view.emb (ix2 p q)) 1)) := by
    show b₃ V c (((cfg2.win 4).blk t).view.emb (ix1 q)) = _
    rw [h4]
    rfl
  exact congrArg₂ (· + ·)
    (Finset.sum_congr rfl fun j _ => congrArg₂ (· * ·)
      (congrArg Cert.Spec.ssp (congrArg₂ (· + ·) (Finset.sum_congr rfl fun k _ => congrArg₂ (· * ·) (hA k) (hW₂ j k)) (hB₂ j)))
      (hW₃ j))
    hB₃

/-- An index of the result lies in point t's block iff its row is among the block's 5000 rows. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v19).slice (win2_5.rect t)).set ↔ _
  rw [View.set_slice_whole, Rect.mem_set_unit]
  exact Iff.rfl

/-- The result array after the region is the node update of the aggregated messages and the four parameters
    the region was entered with. -/
theorem result (c : Dev nD) :
    (dat2 (F := Ideal) V c).arrAt 5 cfg2.N
      = Cert.Spec.nodeUpdate (V c main_v18) (V c main_arg9) (V c main_arg10) (V c main_arg11) (V c main_arg12) :=
  (dat2 (F := Ideal) V c).arrAt_eq_of_cover 5 _ (fun t _ => flushed_eq V c t) fun i => by
    have hi0 : (i 0).val < 50000 := (i 0).isLt
    have hi1 : (i 1).val < 128 := (i 1).isLt
    have hN : grid2.N = 10 := N_2
    refine ⟨⟨(i 0).val / 5000, by show (i 0).val / 5000 < grid2.N; omega⟩, flush2_5 _, ?_⟩
    rw [mem_blk]
    obtain ⟨e0, e1, e2, e3, e4, e5, e6, e7, e8, e9⟩ := idx_facts ⟨(i 0).val / 5000, by show (i 0).val / 5000 < grid2.N; omega⟩
    intro a
    match a with
    | ⟨0, _⟩ => show win2_5.index _ (0 : Fin 2) * 5000 ≤ (i 0).val ∧ (i 0).val < win2_5.index _ (0 : Fin 2) * 5000 + 5000; rw [e9]; show (i 0).val / 5000 * 5000 ≤ (i 0).val ∧ (i 0).val < (i 0).val / 5000 * 5000 + 5000; omega
    | ⟨1, _⟩ => show win2_5.index _ (1 : Fin 2) * 128 ≤ (i 1).val ∧ (i 1).val < win2_5.index _ (1 : Fin 2) * 128 + 128; rw [e8]; omega

end Cert.KernelIdeal.Region2

end
-- ==== Proof.KernelValue.lean ====
/-
  The idealized kernel program's result as one function of its thirteen arguments.

  Between the launch and the return the program's buffers pass five boundaries: after the first host
  stretch (the two index rows cut out of the edge list, and the edge attributes and distances packed side by
  side into one [800000, 51] array), after the edge-filter region, after the node-projection region, after the
  second host stretch (gather of the projected rows at the source indices, product with the edge filter,
  scatter-add at the destination indices into a zero array), and after the node-update region. Each region
  leaves in its result array the specification's function of the arrays it found (the three region modules);
  each host stretch leaves the composed term of its operations; an array nobody writes is read back to the
  launch memory. Chaining these, the result buffer ends at
      nodeUpdate (aggregate of the arguments) lin2_w lin2_b lin_w lin_b,
  where the aggregate is the second host stretch's scatter-add term over nodeProj and edgeFilter of the
  arguments. The packed array read back column by column is the attributes and the distance, so the filter of
  the packed array is the filter of the two arrays.
-/
import proofs.«132775_j14370960572978_1_alg».proof.Proof.Gen.KernelIdeal.Frame
import proofs.«132775_j14370960572978_1_alg».proof.Proof.Spec
import proofs.«132775_j14370960572978_1_alg».proof.Proof.Region0
import proofs.«132775_j14370960572978_1_alg».proof.Proof.Region1
import proofs.«132775_j14370960572978_1_alg».proof.Proof.Region2
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Glue

open Cert.KernelIdeal Cert.KernelIdeal.Gen

variable (m : (ℓ : Loc nD τ sig) → Buf (Elt Ideal) ℓ) (ρ : Dev nD → PrngReg)

/-! ## The packed features read back -/

/-- The edge filter of the attributes and the distances packed side by side is the edge filter of the two. -/
theorem packed_eq (attr : Cert.Spec.Mat 800000 50) (dist : Cert.Spec.Row 800000) (w₁ : Cert.Spec.Mat 128 50) (b₁ : Cert.Spec.Row 128)
    (w₂ : Cert.Spec.Mat 128 128) (b₂ : Cert.Spec.Row 128) :
    Cert.Spec.edgeFilterPacked
        (concatenate S800000x51 1 [⟨S800000x50, attr⟩, ⟨S800000x1, broadcastInDim S800000x1 ![0] bcast_S800000_S800000x1_0 dist⟩]
          concatenates_S800000x50_S800000x1_S800000x51_d1) w₁ b₁ w₂ b₂
      = Cert.Spec.edgeFilter attr dist w₁ b₁ w₂ b₂ := by
  funext i
  obtain ⟨e, f, rfl⟩ : ∃ (e : Fin 800000) (f : Fin 128), i = ix2 e f := ⟨i 0, i 1, eq_ix2 i⟩
  have hl : ∀ k : Fin 50, concatenate S800000x51 1 [⟨S800000x50, attr⟩, ⟨S800000x1, broadcastInDim S800000x1 ![0] bcast_S800000_S800000x1_0 dist⟩]
      concatenates_S800000x50_S800000x1_S800000x51_d1 (ix2 e (Fin.castLE (by decide : 50 ≤ 51) k)) = attr (ix2 e k) := fun k =>
    concatenate_pair_apply_left (t := S800000x51) (s₁ := S800000x50) (s₂ := S800000x1) (1 : Fin 2) attr
      (broadcastInDim S800000x1 ![0] bcast_S800000_S800000x1_0 dist) concatenates_S800000x50_S800000x1_S800000x51_d1
      (ix2 e (Fin.castLE (by decide : 50 ≤ 51) k)) rfl (ix2 e k)
      (fun b => by match b with | ⟨0, _⟩ => rfl | ⟨1, _⟩ => rfl)
  have hr : concatenate S800000x51 1 [⟨S800000x50, attr⟩, ⟨S800000x1, broadcastInDim S800000x1 ![0] bcast_S800000_S800000x1_0 dist⟩]
      concatenates_S800000x50_S800000x1_S800000x51_d1 (ix2 e (⟨50, by decide⟩ : Fin 51)) = dist (ix1 e) :=
    (concatenate_pair_apply_right (t := S800000x51) (s₁ := S800000x50) (s₂ := S800000x1) (1 : Fin 2) attr
      (broadcastInDim S800000x1 ![0] bcast_S800000_S800000x1_0 dist) concatenates_S800000x50_S800000x1_S800000x51_d1
      (ix2 e (⟨50, by decide⟩ : Fin 51)) rfl rfl (ix2 e (0 : Fin 1))
      (fun b hb => by match b with | ⟨0, _⟩ => rfl | ⟨1, _⟩ => exact absurd rfl hb) rfl).trans
      (broadcastInDim_apply _ bcast_S800000_S800000x1_0 dist (ix2 e (0 : Fin 1)) (ix1 e) (fun a => match a with
        | ⟨0, _⟩ => by show e.val = if (800000 : Nat) = 1 then 0 else e.val; rw [if_neg (by decide)]))
  unfold Cert.Spec.edgeFilterPacked Cert.Spec.edgeFilter
  simp only [hl]
  rw [hr]

/-! ## The first boundary: after the first host stretch -/

theorem V1_feat (c : Dev nD) : V1 m ρ c main_v5
    = concatenate S800000x51 1 [⟨S800000x50, m ((c : Thread nD τ).loc main_arg3)⟩, ⟨S800000x1, broadcastInDim S800000x1 ![0] bcast_S800000_S800000x1_0 (m ((c : Thread nD τ).loc main_arg2))⟩] concatenates_S800000x50_S800000x1_S800000x51_d1 := by
  show StableHlo.after hostOps0 (W0 m ρ c) (Proc.devRef .tc main_v5) = _
  after_results
  try rfl

/-- The source-index row of the edge list. -/
abbrev src (c : Dev nD) : IVec S800000 32 :=
  shapeCast _ (extractStridedSlice S1x800000 ![0, 0] (m ((c : Thread nD τ).loc main_arg1)) slices_S2x800000_S1x800000_0_0) shapeCasts_S1x800000_S800000
/-- The destination-index row of the edge list. -/
abbrev dst (c : Dev nD) : IVec S800000 32 :=
  shapeCast _ (extractStridedSlice S1x800000 ![1, 0] (m ((c : Thread nD τ).loc main_arg1)) slices_S2x800000_S1x800000_1_0) shapeCasts_S1x800000_S800000

theorem V1_src (c : Dev nD) : V1 m ρ c main_v1 = src m c := by
  show StableHlo.after hostOps0 (W0 m ρ c) (Proc.devRef .tc main_v1) = _
  after_results
  try rfl
theorem V1_dst (c : Dev nD) : V1 m ρ c main_v3 = dst m c := by
  show StableHlo.after hostOps0 (W0 m ρ c) (Proc.devRef .tc main_v3) = _
  after_results
  try rfl

/-- The first host stretch writes no argument. -/
theorem V1_arg (c : Dev nD) :
    V1 m ρ c main_arg0 = m ((c : Thread nD τ).loc main_arg0) ∧ V1 m ρ c main_arg4 = m ((c : Thread nD τ).loc main_arg4)
    ∧ V1 m ρ c main_arg5 = m ((c : Thread nD τ).loc main_arg5) ∧ V1 m ρ c main_arg6 = m ((c : Thread nD τ).loc main_arg6)
    ∧ V1 m ρ c main_arg7 = m ((c : Thread nD τ).loc main_arg7) ∧ V1 m ρ c main_arg8 = m ((c : Thread nD τ).loc main_arg8)
    ∧ V1 m ρ c main_arg9 = m ((c : Thread nD τ).loc main_arg9) ∧ V1 m ρ c main_arg10 = m ((c : Thread nD τ).loc main_arg10)
    ∧ V1 m ρ c main_arg11 = m ((c : Thread nD τ).loc main_arg11) ∧ V1 m ρ c main_arg12 = m ((c : Thread nD τ).loc main_arg12) := by
  refine ⟨?_, ?_, ?_, ?_, ?_, ?_, ?_, ?_, ?_, ?_⟩
  · show StableHlo.after hostOps0 (W0 m ρ c) (Proc.devRef .tc main_arg0) = _; after_results; try rfl
  · show StableHlo.after hostOps0 (W0 m ρ c) (Proc.devRef .tc main_arg4) = _; after_results; try rfl
  · show StableHlo.after hostOps0 (W0 m ρ c) (Proc.devRef .tc main_arg5) = _; after_results; try rfl
  · show StableHlo.after hostOps0 (W0 m ρ c) (Proc.devRef .tc main_arg6) = _; after_results; try rfl
  · show StableHlo.after hostOps0 (W0 m ρ c) (Proc.devRef .tc main_arg7) = _; after_results; try rfl
  · show StableHlo.after hostOps0 (W0 m ρ c) (Proc.devRef .tc main_arg8) = _; after_results; try rfl
  · show StableHlo.after hostOps0 (W0 m ρ c) (Proc.devRef .tc main_arg9) = _; after_results; try rfl
  · show StableHlo.after hostOps0 (W0 m ρ c) (Proc.devRef .tc main_arg10) = _; after_results; try rfl
  · show StableHlo.after hostOps0 (W0 m ρ c) (Proc.devRef .tc main_arg11) = _; after_results; try rfl
  · show StableHlo.after hostOps0 (W0 m ρ c) (Proc.devRef .tc main_arg12) = _; after_results; try rfl

/-! ## The second boundary: after the edge-filter region -/

/-- The edge filter of the arguments. -/
abbrev filt (c : Dev nD) : Cert.Spec.Mat 800000 128 :=
  Cert.Spec.edgeFilter (m ((c : Thread nD τ).loc main_arg3)) (m ((c : Thread nD τ).loc main_arg2)) (m ((c : Thread nD τ).loc main_arg4))
    (m ((c : Thread nD τ).loc main_arg5)) (m ((c : Thread nD τ).loc main_arg6)) (m ((c : Thread nD τ).loc main_arg7))

theorem V2_filt (c : Dev nD) : V2 m ρ c main_v6 = filt m c := by
  refine (W2_arr m ρ c 5).trans ((Cert.KernelIdeal.Region0.result (V1 m ρ) c).trans ?_)
  obtain ⟨-, h4, h5, h6, h7, -⟩ := V1_arg m ρ c
  rw [V1_feat m ρ c, h4, h5, h6, h7]
  exact packed_eq _ _ _ _ _ _

/-- The edge-filter region writes only its result array. -/
theorem V2_keep (c : Dev nD) :
    V2 m ρ c main_arg0 = m ((c : Thread nD τ).loc main_arg0) ∧ V2 m ρ c main_arg8 = m ((c : Thread nD τ).loc main_arg8)
    ∧ V2 m ρ c main_arg9 = m ((c : Thread nD τ).loc main_arg9) ∧ V2 m ρ c main_arg10 = m ((c : Thread nD τ).loc main_arg10)
    ∧ V2 m ρ c main_arg11 = m ((c : Thread nD τ).loc main_arg11) ∧ V2 m ρ c main_arg12 = m ((c : Thread nD τ).loc main_arg12)
    ∧ V2 m ρ c main_v1 = src m c ∧ V2 m ρ c main_v3 = dst m c := by
  obtain ⟨h0, -, -, -, -, h8, h9, h10, h11, h12⟩ := V1_arg m ρ c
  exact ⟨(W2_of_ne m ρ c main_arg0 (by decide)).trans h0, (W2_of_ne m ρ c main_arg8 (by decide)).trans h8,
    (W2_of_ne m ρ c main_arg9 (by decide)).trans h9, (W2_of_ne m ρ c main_arg10 (by decide)).trans h10,
    (W2_of_ne m ρ c main_arg11 (by decide)).trans h11, (W2_of_ne m ρ c main_arg12 (by decide)).trans h12,
    (W2_of_ne m ρ c main_v1 (by decide)).trans (V1_src m ρ c), (W2_of_ne m ρ c main_v3 (by decide)).trans (V1_dst m ρ c)⟩

/-! ## The third boundary: after the node-projection region -/

/-- The projected node features of the arguments. -/
abbrev proj (c : Dev nD) : Cert.Spec.Mat 50000 128 :=
  Cert.Spec.nodeProj (m ((c : Thread nD τ).loc main_arg0)) (m ((c : Thread nD τ).loc main_arg8))

theorem V3_proj (c : Dev nD) : V3 m ρ c main_v7 = proj m c := by
  refine (W3_arr m ρ c 2).trans ((Cert.KernelIdeal.Region1.result (V2 m ρ) c).trans ?_)
  obtain ⟨h0, h8, -⟩ := V2_keep m ρ c
  rw [h0, h8]

/-- The node-projection region writes only its result array. -/
theorem V3_keep (c : Dev nD) :
    V3 m ρ c main_v6 = filt m c ∧ V3 m ρ c main_v1 = src m c ∧ V3 m ρ c main_v3 = dst m c
    ∧ V3 m ρ c main_arg9 = m ((c : Thread nD τ).loc main_arg9) ∧ V3 m ρ c main_arg10 = m ((c : Thread nD τ).loc main_arg10)
    ∧ V3 m ρ c main_arg11 = m ((c : Thread nD τ).loc main_arg11) ∧ V3 m ρ c main_arg12 = m ((c : Thread nD τ).loc main_arg12) := by
  obtain ⟨-, -, h9, h10, h11, h12, hs, hd⟩ := V2_keep m ρ c
  exact ⟨(W3_of_ne m ρ c main_v6 (by decide)).trans (V2_filt m ρ c), (W3_of_ne m ρ c main_v1 (by decide)).trans hs,
    (W3_of_ne m ρ c main_v3 (by decide)).trans hd, (W3_of_ne m ρ c main_arg9 (by decide)).trans h9,
    (W3_of_ne m ρ c main_arg10 (by decide)).trans h10, (W3_of_ne m ρ c main_arg11 (by decide)).trans h11,
    (W3_of_ne m ρ c main_arg12 (by decide)).trans h12⟩

/-! ## The fourth boundary: after the second host stretch -/

/-- The aggregate as a function of the projected rows, the edge filter and the two index rows: the projected rows gathered at the source indices (a negative
    index first moved up by the number of nodes), times the edge filter, scatter-added at the destination
    indices into a zero array. -/
def aggOf (h : Cert.Spec.Mat 50000 128) (w : Cert.Spec.Mat 800000 128) (s d : IVec S800000 32) : Cert.Spec.Mat 50000 128 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 d)
    (mulf
      (Host.gather gather_S50000x128_S800000x1_S800000x128_1_0_n_n_0_1_1128 h
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32)))
            s)))
      w)

/-- The aggregated messages of the arguments. -/
abbrev agg (c : Dev nD) : Cert.Spec.Mat 50000 128 := aggOf (proj m c) (filt m c) (src m c) (dst m c)

/-- The second host stretch's scatter-add term, over what the third boundary holds. -/
theorem V4_agg_of (c : Dev nD) :
    V4 m ρ c main_v18 = aggOf (V3 m ρ c main_v7) (V3 m ρ c main_v6) (V3 m ρ c main_v1) (V3 m ρ c main_v3) := by
  show StableHlo.after hostOps2 (W3 m ρ c) (Proc.devRef .tc main_v18) = _
  after_results
  unfold aggOf
  rfl

theorem V4_agg (c : Dev nD) : V4 m ρ c main_v18 = agg m c := by
  obtain ⟨hf, hs, hd, -⟩ := V3_keep m ρ c
  rw [V4_agg_of m ρ c, hf, hs, hd, V3_proj m ρ c]

/-- The second host stretch writes no argument. -/
theorem V4_arg (c : Dev nD) :
    V4 m ρ c main_arg9 = m ((c : Thread nD τ).loc main_arg9) ∧ V4 m ρ c main_arg10 = m ((c : Thread nD τ).loc main_arg10)
    ∧ V4 m ρ c main_arg11 = m ((c : Thread nD τ).loc main_arg11) ∧ V4 m ρ c main_arg12 = m ((c : Thread nD τ).loc main_arg12) := by
  obtain ⟨-, -, -, h9, h10, h11, h12⟩ := V3_keep m ρ c
  refine ⟨?_, ?_, ?_, ?_⟩
  · show StableHlo.after hostOps2 (W3 m ρ c) (Proc.devRef .tc main_arg9) = _; after_results; exact h9
  · show StableHlo.after hostOps2 (W3 m ρ c) (Proc.devRef .tc main_arg10) = _; after_results; exact h10
  · show StableHlo.after hostOps2 (W3 m ρ c) (Proc.devRef .tc main_arg11) = _; after_results; exact h11
  · show StableHlo.after hostOps2 (W3 m ρ c) (Proc.devRef .tc main_arg12) = _; after_results; exact h12

/-! ## The last boundary: the result -/

/-- The program's result as a function of its arguments. -/
abbrev out (c : Dev nD) : Cert.Spec.Mat 50000 128 :=
  Cert.Spec.nodeUpdate (agg m c) (m ((c : Thread nD τ).loc main_arg9)) (m ((c : Thread nD τ).loc main_arg10))
    (m ((c : Thread nD τ).loc main_arg11)) (m ((c : Thread nD τ).loc main_arg12))

/-- The result buffer at the last boundary is the node update of the aggregated messages. -/
theorem result (c : Dev nD) : W5 m ρ c (Proc.devRef .tc main_v19) = out m c := by
  refine (W5_arr m ρ c 5).trans ((Cert.KernelIdeal.Region2.result (V4 m ρ) c).trans ?_)
  obtain ⟨h9, h10, h11, h12⟩ := V4_arg m ρ c
  rw [V4_agg m ρ c, h9, h10, h11, h12]

end Cert.KernelIdeal.Glue

end
-- ==== Proof.RefValue.lean ====
/-
  The reference program's stages, read index by index, are the specification's three functions:
  the product stage %26 is the edge filter, the stage %28 the projected node features, and the result %52
  the node update of the scatter-add stage %39.
-/
import proofs.«132775_j14370960572978_1_alg».proof.Proof.Gen.ReferenceIdeal.Read
import proofs.«132775_j14370960572978_1_alg».proof.Proof.Spec

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read

/-- Stage %10 at one edge: the cosine cutoff of the edge's distance. -/
theorem v10_entry (x2 : (⟨S800000, .f32⟩ : BufTy).Contents (Elt Ideal)) (e : S800000.Idx) :
    val_main_v10 (F := Ideal) x2 e = Cert.Spec.cutoff (x2 e) := by
  rw [val_main_v10_apply, val_main_v9_apply, val_main_cst_1_apply, val_main_v8_apply, val_main_v6_apply,
    val_main_v5_apply, val_main_v4_apply, val_main_cst_apply, val_main_v7_apply, val_main_cst_0_apply]
  generalize x2 e = d
  simp only [Ideal.mulf_def, Ideal.addf_def, Ideal.hostUnary_cos_def, Ideal.ofBits_def]
  rfl

/-- The first softplus call and the subtraction of the shift, at one entry: the shifted softplus of stage %15. -/
theorem v18_entry (x3 : (⟨S800000x50, .f32⟩ : BufTy).Contents (Elt Ideal))
    (x4 : (⟨S128x50, .f32⟩ : BufTy).Contents (Elt Ideal)) (x5 : (⟨S128, .f32⟩ : BufTy).Contents (Elt Ideal))
    (j : S800000x128.Idx) :
    val_main_v18 (F := Ideal) x3 x4 x5 j = Cert.Spec.ssp (val_main_v15 (F := Ideal) x3 x4 x5 j) := by
  rw [val_main_v18_apply, val_main_v16_apply, val_main_call0_v4_apply, val_main_call0_v6_apply,
    val_main_call0_v11_apply, val_main_call0_v1_apply, val_main_call0_v10_apply, val_main_call0_v9_apply,
    val_main_call0_v8_apply, val_main_call0_v7_apply, val_main_call0_v3_apply, val_main_call0_v0_apply,
    val_main_call0_v2_apply, val_main_call0_v5_apply, val_main_v17_apply, val_main_cst_2_apply,
    val_main_call0_cst_apply]
  generalize val_main_v15 (F := Ideal) x3 x4 x5 j = y
  simp only [Ideal.addf_def, Ideal.subf_def, Ideal.maximumf_def, Ideal.negf_def, Ideal.hostNegf_def, Ideal.hostAbsf_def,
    Ideal.hostUnary_exp_def, Ideal.hostUnary_log1p_def, Ideal.ofBits_def, Ideal.cmpf_def, Ideal.absf_def]
  exact Cert.Spec.ssp_of_neg y

/-- Stage %15 at entry (p, j): the attributes of edge p against row j of the first weight, plus the bias. -/
theorem v15_entry (x3 : (⟨S800000x50, .f32⟩ : BufTy).Contents (Elt Ideal))
    (x4 : (⟨S128x50, .f32⟩ : BufTy).Contents (Elt Ideal)) (x5 : (⟨S128, .f32⟩ : BufTy).Contents (Elt Ideal))
    (p : Fin 800000) (j : Fin 128) :
    val_main_v15 (F := Ideal) x3 x4 x5 (ix2 p j)
      = (∑ k : Fin 50, (x3 : Cert.Spec.Mat 800000 50) (ix2 p k) * (x4 : Cert.Spec.Mat 128 50) (ix2 j k))
          + (x5 : Cert.Spec.Row 128) (ix1 j) := by
  rw [val_main_v15_apply, val_main_v12_apply, val_main_v14_apply, val_main_v13_apply, Ideal.addf_def]
  have hb : idx_main_v13 (idx_main_v14 (ix2 p j)) = ix1 j :=
    funext fun a => Fin.ext (by match a with | ⟨0, _⟩ => rfl)
  rw [hb]
  refine congrArg₂ HAdd.hAdd (Finset.sum_congr rfl fun k _ => ?_) rfl
  rw [val_main_v11_apply]
  have hl : lidx_main_v12 (ix2 p j) k = ix2 p k :=
    funext fun a => Fin.ext (by match a with | ⟨0, _⟩ => rfl | ⟨1, _⟩ => rfl)
  have hr : idx_main_v11 (ridx_main_v12 (ix2 p j) k) = ix2 j k :=
    funext fun a => Fin.ext (by match a with | ⟨0, _⟩ => rfl | ⟨1, _⟩ => rfl)
  rw [hl, hr]

/-- Stage %26 — (softplus-shifted hidden layer · w₂ᵀ + b₂) · cutoff — is the edge filter. -/
theorem edge_filter_eq (x2 : (⟨S800000, .f32⟩ : BufTy).Contents (Elt Ideal)) (x3 : (⟨S800000x50, .f32⟩ : BufTy).Contents (Elt Ideal))
    (x4 : (⟨S128x50, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) :
    val_main_v26 (F := Ideal) x2 x3 x4 x5 x6 x7 = Cert.Spec.edgeFilter x3 x2 x4 x5 x6 x7 := by
  funext i
  obtain ⟨p, q, rfl⟩ : ∃ (p : Fin 800000) (q : Fin 128), i = ix2 p q := ⟨i 0, i 1, eq_ix2 i⟩
  rw [val_main_v26_apply, val_main_v23_apply, val_main_v20_apply, val_main_v22_apply, val_main_v21_apply,
    val_main_v25_apply, val_main_v24_apply, v10_entry, Ideal.mulf_def, Ideal.addf_def]
  have hb : idx_main_v21 (idx_main_v22 (ix2 p q)) = ix1 q :=
    funext fun a => Fin.ext (by match a with | ⟨0, _⟩ => rfl)
  have hd : idx_main_v24 (idx_main_v25 (ix2 p q)) = ix1 p :=
    funext fun a => Fin.ext (by match a with | ⟨0, _⟩ => rfl)
  rw [hb, hd]
  unfold Cert.Spec.edgeFilter
  refine congrArg₂ HMul.hMul (congrArg₂ HAdd.hAdd (Finset.sum_congr rfl fun j _ => ?_) rfl) rfl
  rw [val_main_v19_apply]
  have hl : lidx_main_v20 (ix2 p q) j = ix2 p j :=
    funext fun a => Fin.ext (by match a with | ⟨0, _⟩ => rfl | ⟨1, _⟩ => rfl)
  have hr : idx_main_v19 (ridx_main_v20 (ix2 p q) j) = ix2 q j :=
    funext fun a => Fin.ext (by match a with | ⟨0, _⟩ => rfl | ⟨1, _⟩ => rfl)
  rw [hl, hr, v18_entry, v15_entry]

/-- Stage %28 — x · lin1_wᵀ — is the projection. -/
theorem node_proj_eq (x0 : (⟨S50000x128, .f32⟩ : BufTy).Contents (Elt Ideal)) (x8 : (⟨S128x128, .f32⟩ : BufTy).Contents (Elt Ideal)) :
    val_main_v28 (F := Ideal) x0 x8 = Cert.Spec.nodeProj x0 x8 := by
  funext i
  obtain ⟨p, q, rfl⟩ : ∃ (p : Fin 50000) (q : Fin 128), i = ix2 p q := ⟨i 0, i 1, eq_ix2 i⟩
  rw [val_main_v28_apply]
  unfold Cert.Spec.nodeProj
  refine Finset.sum_congr rfl fun k _ => ?_
  rw [val_main_v27_apply]
  have hl : lidx_main_v28 (ix2 p q) k = ix2 p k :=
    funext fun a => Fin.ext (by match a with | ⟨0, _⟩ => rfl | ⟨1, _⟩ => rfl)
  have hr : idx_main_v27 (ridx_main_v28 (ix2 p q) k) = ix2 q k :=
    funext fun a => Fin.ext (by match a with | ⟨0, _⟩ => rfl | ⟨1, _⟩ => rfl)
  rw [hl, hr]

/-- The second softplus call and the subtraction of the shift, at one entry: the shifted softplus of stage %44. -/
theorem v47_entry (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S800000x50, .f32⟩ : BufTy).Contents (Elt Ideal))
    (x4 : (⟨S128x50, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 x9 : (⟨S128x128, .f32⟩ : BufTy).Contents (Elt Ideal)) (x10 : (⟨S128, .f32⟩ : BufTy).Contents (Elt Ideal))
    (j : S50000x128.Idx) :
    val_main_v47 (F := Ideal) x0 x1 x2 x3 x4 x5 x6 x7 x8 x9 x10 j
      = Cert.Spec.ssp (val_main_v44 (F := Ideal) x0 x1 x2 x3 x4 x5 x6 x7 x8 x9 x10 j) := by
  rw [val_main_v47_apply, val_main_v45_apply, val_main_call1_v4_apply, val_main_call1_v6_apply,
    val_main_call1_v11_apply, val_main_call1_v1_apply, val_main_call1_v10_apply, val_main_call1_v9_apply,
    val_main_call1_v8_apply, val_main_call1_v7_apply, val_main_call1_v3_apply, val_main_call1_v0_apply,
    val_main_call1_v2_apply, val_main_call1_v5_apply, val_main_v46_apply, val_main_cst_5_apply,
    val_main_call1_cst_apply]
  generalize val_main_v44 (F := Ideal) x0 x1 x2 x3 x4 x5 x6 x7 x8 x9 x10 j = y
  simp only [Ideal.addf_def, Ideal.subf_def, Ideal.maximumf_def, Ideal.negf_def, Ideal.hostNegf_def, Ideal.hostAbsf_def,
    Ideal.hostUnary_exp_def, Ideal.hostUnary_log1p_def, Ideal.ofBits_def, Ideal.cmpf_def, Ideal.absf_def]
  exact Cert.Spec.ssp_of_neg y

/-- Stage %44 at entry (p, j): row p of the scatter-add stage against row j of the weight, plus the bias. -/
theorem v44_entry (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S800000x50, .f32⟩ : BufTy).Contents (Elt Ideal))
    (x4 : (⟨S128x50, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 x9 : (⟨S128x128, .f32⟩ : BufTy).Contents (Elt Ideal)) (x10 : (⟨S128, .f32⟩ : BufTy).Contents (Elt Ideal))
    (p : Fin 50000) (j : Fin 128) :
    val_main_v44 (F := Ideal) x0 x1 x2 x3 x4 x5 x6 x7 x8 x9 x10 (ix2 p j)
      = (∑ k : Fin 128, (val_main_v39 (F := Ideal) x0 x1 x2 x3 x4 x5 x6 x7 x8 : Cert.Spec.Mat 50000 128) (ix2 p k)
            * (x9 : Cert.Spec.Mat 128 128) (ix2 j k))
          + (x10 : Cert.Spec.Row 128) (ix1 j) := by
  rw [val_main_v44_apply, val_main_v41_apply, val_main_v43_apply, val_main_v42_apply, Ideal.addf_def]
  have hb : idx_main_v42 (idx_main_v43 (ix2 p j)) = ix1 j :=
    funext fun a => Fin.ext (by match a with | ⟨0, _⟩ => rfl)
  rw [hb]
  refine congrArg₂ HAdd.hAdd (Finset.sum_congr rfl fun k _ => ?_) rfl
  rw [val_main_v40_apply]
  have hl : lidx_main_v41 (ix2 p j) k = ix2 p k :=
    funext fun a => Fin.ext (by match a with | ⟨0, _⟩ => rfl | ⟨1, _⟩ => rfl)
  have hr : idx_main_v40 (ridx_main_v41 (ix2 p j) k) = ix2 j k :=
    funext fun a => Fin.ext (by match a with | ⟨0, _⟩ => rfl | ⟨1, _⟩ => rfl)
  rw [hl, hr]

/-- The result %52 is the node update of the scatter-add stage %39. -/
theorem node_update_eq (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S800000x50, .f32⟩ : BufTy).Contents (Elt Ideal))
    (x4 : (⟨S128x50, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 x9 : (⟨S128x128, .f32⟩ : BufTy).Contents (Elt Ideal)) (x10 : (⟨S128, .f32⟩ : BufTy).Contents (Elt Ideal))
    (x11 : (⟨S128x128, .f32⟩ : BufTy).Contents (Elt Ideal)) (x12 : (⟨S128, .f32⟩ : BufTy).Contents (Elt Ideal)) :
    val_main_v52 (F := Ideal) x0 x1 x2 x3 x4 x5 x6 x7 x8 x9 x10 x11 x12
      = Cert.Spec.nodeUpdate (val_main_v39 (F := Ideal) x0 x1 x2 x3 x4 x5 x6 x7 x8) x9 x10 x11 x12 := by
  funext i
  obtain ⟨p, q, rfl⟩ : ∃ (p : Fin 50000) (q : Fin 128), i = ix2 p q := ⟨i 0, i 1, eq_ix2 i⟩
  rw [val_main_v52_apply, val_main_v49_apply, val_main_v51_apply, val_main_v50_apply, Ideal.addf_def]
  have hb : idx_main_v50 (idx_main_v51 (ix2 p q)) = ix1 q :=
    funext fun a => Fin.ext (by match a with | ⟨0, _⟩ => rfl)
  rw [hb]
  unfold Cert.Spec.nodeUpdate
  refine congrArg₂ HAdd.hAdd (Finset.sum_congr rfl fun j _ => ?_) rfl
  rw [val_main_v48_apply]
  have hl : lidx_main_v49 (ix2 p q) j = ix2 p j :=
    funext fun a => Fin.ext (by match a with | ⟨0, _⟩ => rfl | ⟨1, _⟩ => rfl)
  have hr : idx_main_v48 (ridx_main_v49 (ix2 p q) j) = ix2 q j :=
    funext fun a => Fin.ext (by match a with | ⟨0, _⟩ => rfl | ⟨1, _⟩ => rfl)
  rw [hl, hr, v47_entry, v44_entry]

end Cert.ReferenceIdeal.RefValue

end
-- ==== Proof.lean ====
/-
  The certificate: an interaction block of a continuous-filter graph network — an edge filter (a two-layer
  perceptron of the edge attributes with a shifted softplus between the layers, scaled by a cosine cutoff of
  the edge distance), a projection of the node features, a gather of the projected rows at each edge's source,
  their product with the filter scatter-added at each edge's destination, and a two-layer node update of the
  aggregate — computed by three tiled kernels around the gather and the scatter-add, against the same
  computation written as one host program.

  On the extended reals the two programs are one function. Every matrix product is the same finite sum
  ∑ k, left p k · weight q k, whether a tile of rows is multiplied by the weight contracted on its second
  coordinate or the whole array by the transposed weight; the two spellings of the shifted softplus agree
  (Spec.lean); the packed feature array read back column by column is the attributes and the distance; and the
  gather, the product and the scatter-add between the kernels are the same host operations applied to equal
  arrays. No law used moves a factor across a sum or cancels, so the finiteness of the inputs is never opened.

  The frames of the two kernel programs are the generated ones; the reference's frame is its generated run with
  the result dropped; the idealization rewrote nothing, so its conjunct is trivial.
-/
import proofs.«132775_j14370960572978_1_alg».proof.Defs
import proofs.«132775_j14370960572978_1_alg».proof.Proof.Gen.Kernel
import proofs.«132775_j14370960572978_1_alg».proof.Proof.Gen.Kernel.Skeleton
import proofs.«132775_j14370960572978_1_alg».proof.Proof.Gen.Kernel.Launch
import proofs.«132775_j14370960572978_1_alg».proof.Proof.Gen.Kernel.Points
import proofs.«132775_j14370960572978_1_alg».proof.Proof.Gen.Kernel.Frame
import proofs.«132775_j14370960572978_1_alg».proof.Proof.Gen.KernelIdeal
import proofs.«132775_j14370960572978_1_alg».proof.Proof.Gen.KernelIdeal.Skeleton
import proofs.«132775_j14370960572978_1_alg».proof.Proof.Gen.KernelIdeal.Launch
import proofs.«132775_j14370960572978_1_alg».proof.Proof.Gen.KernelIdeal.Points
import proofs.«132775_j14370960572978_1_alg».proof.Proof.Gen.KernelIdeal.Frame
import proofs.«132775_j14370960572978_1_alg».proof.Proof.Gen.ReferenceIdeal
import proofs.«132775_j14370960572978_1_alg».proof.Proof.Gen.Pre_finite_inputs
import proofs.«132775_j14370960572978_1_alg».proof.Proof.Gen.ReferenceIdeal.Run
import proofs.«132775_j14370960572978_1_alg».proof.Proof.Gen.ReferenceIdeal.Read
import proofs.«132775_j14370960572978_1_alg».proof.Proof.KernelRun
import proofs.«132775_j14370960572978_1_alg».proof.Proof.KernelValue
import proofs.«132775_j14370960572978_1_alg».proof.Proof.RefValue
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The reference's scatter-add stage is the kernel program's aggregate of the same thirteen arrays: the same
    host operations over the projection and the edge filter, which are the specification's on both sides. -/
theorem aggregate_eq (m : (ℓ : Loc Cert.KernelIdeal.nD Cert.KernelIdeal.τ Cert.KernelIdeal.sig) → Buf (Elt Ideal) ℓ) (c : Dev Cert.KernelIdeal.nD) :
    Cert.ReferenceIdeal.Read.val_main_v39 (F := Ideal)
        (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      = Cert.KernelIdeal.Glue.agg m c := by
  unfold Cert.ReferenceIdeal.Read.val_main_v39 Cert.ReferenceIdeal.Read.val_main_v36 Cert.ReferenceIdeal.Read.val_main_v35
  rw [Cert.ReferenceIdeal.RefValue.node_proj_eq, Cert.ReferenceIdeal.RefValue.edge_filter_eq]
  rfl

/-- From memories that agree on the arguments both idealized programs end with the node update of the same
    aggregate. -/
theorem algebraic : Cert.algebraic_KernelIdeal_ReferenceIdeal := by
  intro m ρ m' ρ' _ hagree
  refine ⟨fun c => Cert.KernelIdeal.Glue.out m c, ?_, ?_⟩
  · exact (θ_run Cert.KernelIdeal.defs _ _).mono
      (fun _ h c => ⟨(h c).1.trans (Cert.KernelIdeal.Glue.result m ρ c), (h c).2⟩)
      (Cert.KernelIdeal.Launched.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12⟩ := hagree c
    rw [Cert.ReferenceIdeal.Read.val_main_v52_eq, Cert.ReferenceIdeal.RefValue.node_update_eq,
      a0, a1, a2, a3, a4, a5, a6, a7, a8, a9, a10, a11, a12, aggregate_eq m c]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
